-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x4 : Shape := ⟨2, ![131072, 4]⟩
abbrev S131072 : Shape := ⟨1, ![131072]⟩
abbrev S131072x128 : Shape := ⟨2, ![131072, 128]⟩
abbrev S128x128 : Shape := ⟨2, ![128, 128]⟩
abbrev S9x128 : Shape := ⟨2, ![9, 128]⟩
abbrev S9x2 : Shape := ⟨2, ![9, 2]⟩
abbrev S_ : Shape := ⟨0, ![]⟩

class Facts : Prop where
  bcast_S_S131072x4 : S_.BroadcastsInDim S131072x4 (![] : Fin 0 → Fin S131072x4.rank)
  reducesTo_S131072x4_S_d0_1 : S131072x4.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S128x128 : S_.BroadcastsInDim S128x128 (![] : Fin 0 → Fin S128x128.rank)
  reducesTo_S128x128_S_d0_1 : S128x128.ReducesTo [0, 1] S_
  bcast_S_S9x128 : S_.BroadcastsInDim S9x128 (![] : Fin 0 → Fin S9x128.rank)
  reducesTo_S9x128_S_d0_1 : S9x128.ReducesTo [0, 1] S_
  bcast_S_S9x2 : S_.BroadcastsInDim S9x2 (![] : Fin 0 → Fin S9x2.rank)
  reducesTo_S9x2_S_d0_1 : S9x2.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_arg5 : FVec F S9x2 .f32) (main_v13 : IVec S_ 1) (main_v16 : IVec S9x128 1) : IVec S_ 1 :=
  let main_c_5 : IVec S_ 1 := constantI S_ 1 1#1
  let main_v17 : IVec S_ 1 := (fun x v => Host.reduce IntOp.andi x v reducesTo_S9x128_S_d0_1 h_S_) main_v16 main_c_5
  let main_v18 : IVec S_ 1 := andi main_v13 main_v17
  let main_v19 : FVec F S9x2 .f32 := Host.absf main_arg5
  let main_cst_6 : FVec F S_ .f32 := constant S_ .f32 0x7F800000#32
  let main_v20 : FVec F S9x2 .f32 := broadcastInDim S9x2 ![] bcast_S_S9x2 main_cst_6
  let main_v21 : IVec S9x2 1 := cmpf .olt main_v19 main_v20
  let main_c_7 : IVec S_ 1 := constantI S_ 1 1#1
  let main_v22 : IVec S_ 1 := (fun x v => Host.reduce IntOp.andi x v reducesTo_S9x2_S_d0_1 h_S_) main_v21 main_c_7
  let main_v23 : IVec S_ 1 := andi main_v18 main_v22
  let main_c_8 : IVec S_ 32 := constantI S_ 32 0#32
  let main_v24 : IVec S131072 32 := broadcastInDim S131072 ![] bcast_S_S131072 main_c_8
  let main_v25 : IVec S131072 1 := cmpi .sge main_arg1 main_v24
  let main_c_9 : IVec S_ 32 := constantI S_ 32 9#32
  let main_v26 : IVec S131072 32 := broadcastInDim S131072 ![] bcast_S_S131072 main_c_9
  let main_v27 : IVec S131072 1 := cmpi .slt main_arg1 main_v26
  let main_v28 : IVec S131072 1 := andi main_v25 main_v27
  let main_c_10 : IVec S_ 1 := constantI S_ 1 1#1
  let main_v29 : IVec S_ 1 := (fun x v => Host.reduce IntOp.andi x v reducesTo_S131072_S_d0 h_S_) main_v28 main_c_10
  let main_v30 : IVec S_ 1 := andi main_v23 main_v29
  main_v30

def fn {F : FTy → Type} [FloatOps F] (main_arg0 : FVec F S131072x4 .f32) (main_arg1 : IVec S131072 32) (main_arg2 : FVec F S131072x128 .f32) (main_arg3 : FVec F S128x128 .f32) (main_arg4 : FVec F S9x128 .f32) (main_arg5 : FVec F S9x2 .f32) : IVec S_ 1 :=
  let main_v0 : FVec F S131072x4 .f32 := Host.absf main_arg0
  let main_cst : FVec F S_ .f32 := constant S_ .f32 0x7F800000#32
  let main_v1 : FVec F S131072x4 .f32 := broadcastInDim S131072x4 ![] bcast_S_S131072x4 main_cst
  let main_v2 : IVec S131072x4 1 := cmpf .olt main_v0 main_v1
  let main_c : IVec S_ 1 := constantI S_ 1 1#1
  let main_v3 : IVec S_ 1 := (fun x v => Host.reduce IntOp.andi x v reducesTo_S131072x4_S_d0_1 h_S_) main_v2 main_c
  let main_v4 : FVec F S131072x128 .f32 := Host.absf main_arg2
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S9x128 .f32 := Host.absf main_arg4
  let main_cst_4 : FVec F S_ .f32 := constant S_ .f32 0x7F800000#32
  let main_v15 : FVec F S9x128 .f32 := broadcastInDim S9x128 ![] bcast_S_S9x128 main_cst_4
  let main_v16 : IVec S9x128 1 := cmpf .olt main_v14 main_v15
  fn_part1 (F := F) main_arg1 main_arg5 main_v13 main_v16
-- ==== Kernel.lean ====
abbrev S131072x4 : Shape := ⟨2, ![131072, 4]⟩
abbrev S131072 : Shape := ⟨1, ![131072]⟩
abbrev S131072x128 : Shape := ⟨2, ![131072, 128]⟩
abbrev S128x128 : Shape := ⟨2, ![128, 128]⟩
abbrev S9x128 : Shape := ⟨2, ![9, 128]⟩
abbrev S9x2 : Shape := ⟨2, ![9, 2]⟩
abbrev S131072x2 : Shape := ⟨2, ![131072, 2]⟩
abbrev S_ : Shape := ⟨0, ![]⟩
abbrev S131072x1 : Shape := ⟨2, ![131072, 1]⟩
abbrev S128x2 : Shape := ⟨2, ![128, 2]⟩
abbrev S2x128 : Shape := ⟨2, ![2, 128]⟩
abbrev S4096x2 : Shape := ⟨2, ![4096, 2]⟩
abbrev S4096x1 : Shape := ⟨2, ![4096, 1]⟩
abbrev S4096x128 : Shape := ⟨2, ![4096, 128]⟩
abbrev S4096x9 : Shape := ⟨2, ![4096, 9]⟩

abbrev nBuf : Space → Nat
  | .hbm => 19
  | .vmem => 9
  | .smem => 0
  | _ => 0

abbrev bufTy : (tb : Table) → Fin (tcTables nBuf tb) → BufTy
  | .hbm, ⟨0, _⟩ => ⟨S131072x4, .f32⟩
  | .hbm, ⟨1, _⟩ => ⟨S131072, .i32⟩
  | .hbm, ⟨2, _⟩ => ⟨S131072x128, .f32⟩
  | .hbm, ⟨3, _⟩ => ⟨S128x128, .f32⟩
  | .hbm, ⟨4, _⟩ => ⟨S9x128, .f32⟩
  | .hbm, ⟨5, _⟩ => ⟨S9x2, .f32⟩
  | .hbm, ⟨6, _⟩ => ⟨S131072x2, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S128x2, .f32⟩
  | .hbm, ⟨17, _⟩ => ⟨S2x128, .f32⟩
  | .hbm, ⟨18, _⟩ => ⟨S131072x128, .f32⟩
  | .local _ .vmem, ⟨0, _⟩ => ⟨S4096x2, .f32⟩
  | .local _ .vmem, ⟨1, _⟩ => ⟨S4096x2, .f32⟩
  | .local _ .vmem, ⟨2, _⟩ => ⟨S4096x1, .i32⟩
  | .local _ .vmem, ⟨3, _⟩ => ⟨S4096x1, .i32⟩
  | .local _ .vmem, ⟨4, _⟩ => ⟨S9x128, .f32⟩
  | .local _ .vmem, ⟨5, _⟩ => ⟨S9x2, .f32⟩
  | .local _ .vmem, ⟨6, _⟩ => ⟨S2x128, .f32⟩
  | .local _ .vmem, ⟨7, _⟩ => ⟨S4096x128, .f32⟩
  | .local _ .vmem, ⟨8, _⟩ => ⟨S4096x128, .f32⟩
  | _, _ => ⟨S131072x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S131072x128_S131072x2_0_0 : S131072x128.Slices ![0, 0] S131072x2
  bcast_S_S131072 : S_.BroadcastsInDim S131072 (![] : Fin 0 → Fin S131072.rank)
  shapeCasts_S131072_S131072x1 : S131072.ShapeCasts S131072x1
  slices_S128x128_S128x2_0_0 : S128x128.Slices ![0, 0] S128x2
  transposes_S128x2_S2x128_1_0 : S128x2.Transposes [1, 0] S2x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x9_d1_w32 : S4096x9.Iotas .tc 32 [1]
  broadcasts_S4096x1_S4096x9 : S4096x1.Broadcasts S4096x9
  natLt_1_32 : 1 < 32
  inb_S9x128_S9x128_0_0 : ∀ a, (![0, 0] : Fin 2 → Nat) a + S9x128.size a ≤ S9x128.size a
  h_S9x128 : 0 < S9x128.numel
  inb_S9x2_S9x2_0_0 : ∀ a, (![0, 0] : Fin 2 → Nat) a + S9x2.size a ≤ S9x2.size a
  h_S9x2 : 0 < S9x2.numel
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S4096x128_S4096x128_0_0 : ∀ a, (![0, 0] : Fin 2 → Nat) a + S4096x128.size a ≤ S4096x128.size a
  h_S4096x128 : 0 < S4096x128.numel
  dot_S4096x9_S9x128_S4096x128_1_0_0_1_n_n_wf : DotDims.WF S4096x9 S9x128 S4096x128 [1] [0] [0] [1] [] []
  dot_S4096x9_S9x2_S4096x2_1_0_0_1_n_n_wf : DotDims.WF S4096x9 S9x2 S4096x2 [1] [0] [0] [1] [] []
  dot_S4096x2_S2x128_S4096x128_1_0_0_1_n_n_wf : DotDims.WF S4096x2 S2x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S131072x2.size a
  hwx0_0 : ∀ i : grid0.Coords, EltTy.bits .f32 = 32 ∨ (Rect.block (s := S131072x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x128.size a ≤ S9x128.size a
  hwx0_2 : ∀ i : grid0.Coords, EltTy.bits .f32 = 32 ∨ (Rect.block (s := S9x128) S9x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x2.size a ≤ S9x2.size a
  hwx0_3 : ∀ i : grid0.Coords, EltTy.bits .f32 = 32 ∨ (Rect.block (s := S9x2) S9x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)

variable [Facts₀]

def dot_S4096x9_S9x128_S4096x128_1_0_0_1_n_n : DotDims S4096x9 S9x128 S4096x128 where
  lhsContracting := [1]
  rhsContracting := [0]
  lhsNonContracting := [0]
  rhsNonContracting := [1]
  lhsBatch := []
  rhsBatch := []
  wf := dot_S4096x9_S9x128_S4096x128_1_0_0_1_n_n_wf
def dot_S4096x9_S9x2_S4096x2_1_0_0_1_n_n : DotDims S4096x9 S9x2 S4096x2 where
  lhsContracting := [1]
  rhsContracting := [0]
  lhsNonContracting := [0]
  rhsNonContracting := [1]
  lhsBatch := []
  rhsBatch := []
  wf := dot_S4096x9_S9x2_S4096x2_1_0_0_1_n_n_wf
def dot_S4096x2_S2x128_S4096x128_1_0_0_1_n_n : DotDims S4096x2 S2x128 S4096x128 where
  lhsContracting := [1]
  rhsContracting := [0]
  lhsNonContracting := [0]
  rhsNonContracting := [1]
  lhsBatch := []
  rhsBatch := []
  wf := dot_S4096x2_S2x128_S4096x128_1_0_0_1_n_n_wf

abbrev win0_0 : Pipeline.Window sig grid0 :=
  Pipeline.Window.ofSpec (Memref.whole main_v0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S9x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S9x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x4 : Shape := ⟨2, ![131072, 4]⟩
abbrev S131072 : Shape := ⟨1, ![131072]⟩
abbrev S131072x128 : Shape := ⟨2, ![131072, 128]⟩
abbrev S128x128 : Shape := ⟨2, ![128, 128]⟩
abbrev S9x128 : Shape := ⟨2, ![9, 128]⟩
abbrev S9x2 : Shape := ⟨2, ![9, 2]⟩
abbrev S_ : Shape := ⟨0, ![]⟩
abbrev S131072x1 : Shape := ⟨2, ![131072, 1]⟩
abbrev S131072x2 : Shape := ⟨2, ![131072, 2]⟩
abbrev S128x2 : Shape := ⟨2, ![128, 2]⟩

abbrev nBuf : Space → Nat
  | .hbm => 30
  | .vmem => 0
  | .smem => 0
  | _ => 0

abbrev bufTy : (tb : Table) → Fin (tcTables nBuf tb) → BufTy
  | .hbm, ⟨0, _⟩ => ⟨S131072x4, .f32⟩
  | .hbm, ⟨1, _⟩ => ⟨S131072, .i32⟩
  | .hbm, ⟨2, _⟩ => ⟨S131072x128, .f32⟩
  | .hbm, ⟨3, _⟩ => ⟨S128x128, .f32⟩
  | .hbm, ⟨4, _⟩ => ⟨S9x128, .f32⟩
  | .hbm, ⟨5, _⟩ => ⟨S9x2, .f32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072x128, .f32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x2, .f32⟩
  | .hbm, ⟨24, _⟩ => ⟨S131072x2, .f32⟩
  | .hbm, ⟨25, _⟩ => ⟨S131072x2, .f32⟩
  | .hbm, ⟨26, _⟩ => ⟨S131072x2, .f32⟩
  | .hbm, ⟨27, _⟩ => ⟨S128x2, .f32⟩
  | .hbm, ⟨28, _⟩ => ⟨S131072x128, .f32⟩
  | .hbm, ⟨29, _⟩ => ⟨S131072x128, .f32⟩
  | _, _ => ⟨S131072x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  slices_S131072x128_S131072x2_0_0 : S131072x128.Slices ![0, 0] S131072x2
  slices_S128x128_S128x2_0_0 : S128x128.Slices ![0, 0] S128x2
  gather_S9x128_S131072x1_S131072x128_1_0_n_n_0_1_1128_wf : GatherDims.WF S9x128 S131072x1 S131072x128 [1] [0] [] [0] [] 1 ![1, 128]
  gather_S9x2_S131072x1_S131072x2_1_0_n_n_0_1_12_wf : GatherDims.WF S9x2 S131072x1 S131072x2 [1] [0] [] [0] [] 1 ![1, 2]
  dot_S131072x2_S128x2_S131072x128_1_1_0_0_n_n_wf : DotDims.WF S131072x2 S128x2 S131072x128 [1] [1] [0] [0] [] []

variable [Facts₀]

def gather_S9x128_S131072x1_S131072x128_1_0_n_n_0_1_1128 : GatherDims S9x128 S131072x1 S131072x128 where
  offsetDims := [1]
  collapsedSliceDims := [0]
  operandBatchingDims := []
  startIndicesBatchingDims := []
  startIndexMap := [0]
  indexVectorDim := 1
  sliceSizes := ![1, 128]
  wf := gather_S9x128_S131072x1_S131072x128_1_0_n_n_0_1_1128_wf
def gather_S9x2_S131072x1_S131072x2_1_0_n_n_0_1_12 : GatherDims S9x2 S131072x1 S131072x2 where
  offsetDims := [1]
  collapsedSliceDims := [0]
  operandBatchingDims := []
  startIndicesBatchingDims := []
  startIndexMap := [0]
  indexVectorDim := 1
  sliceSizes := ![1, 2]
  wf := gather_S9x2_S131072x1_S131072x2_1_0_n_n_0_1_12_wf
def dot_S131072x2_S128x2_S131072x128_1_1_0_0_n_n : DotDims S131072x2 S128x2 S131072x128 where
  lhsContracting := [1]
  rhsContracting := [1]
  lhsNonContracting := [0]
  rhsNonContracting := [0]
  lhsBatch := []
  rhsBatch := []
  wf := dot_S131072x2_S128x2_S131072x128_1_1_0_0_n_n_wf

class Facts : Prop extends Facts₀ where

variable [Facts]
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.LibOneHotRow.lean ====
/-
  A one-hot row against a column of extended reals.

  A kernel that wants row `w` of a small table without an indexed load builds the row of the identity matrix that
  has its one in column `w` — it compares the word `w` with the column numbers `0, 1, …, n - 1`, widens each answer
  bit to a word and converts the word to a float — and multiplies that row into the table. Over the extended reals
  the entries of the row are exactly `1` (in column `w`) and `0` (elsewhere), `0 * x = 0` and `1 * x = x` for EVERY
  extended real `x` (infinite ones included), so the sum over the columns is the one entry `x w`: no finiteness is
  needed. Stated for any number of columns `n ≤ 2 ^ 32` and any word below `n`.
-/
import Idealize.ShloMosaic.PureOps.Ideal
import Idealize.ShloMosaic.Lib.Affine

noncomputable section

namespace Idealize.ShloMosaic.OneHotRow

open Idealize.ShloMosaic

/-- An answer bit widened to a word, read signed, is the bit as a number. -/
theorem toInt_widen_bit (b : BitVec 1) : (b.setWidth 32).toInt = (b.toNat : ℤ) := by
  rcases BitVec.eq_zero_or_eq_one b with h | h <;> subst h <;> decide

/-- One entry of the row: the comparison of the word with column number `j`, widened and converted, is `1` when the
    word is `j` and `0` otherwise. -/
theorem entry (w : BitVec 32) (j : Nat) (hj : j < 2 ^ 32) :
    (FloatOps.sitofp (F := Ideal) .f32 ((IntOp.cmpi .eq w (BitVec.ofNat 32 j)).setWidth 32) : EReal)
      = if w.toNat = j then 1 else 0 := by
  show ((((IntOp.cmpi .eq w (BitVec.ofNat 32 j)).setWidth 32).toInt : ℝ) : EReal) = _
  rw [toInt_widen_bit]
  by_cases h : w.toNat = j
  · have e : w = BitVec.ofNat 32 j := BitVec.eq_of_toNat_eq (by rw [BitVec.toNat_ofNat, h, Nat.mod_eq_of_lt hj])
    rw [if_pos h, IntOp.cmpi_eq.mpr e]
    norm_num
  · have hne : ¬ w = BitVec.ofNat 32 j := fun e => h (by rw [e, BitVec.toNat_ofNat, Nat.mod_eq_of_lt hj])
    have e0 : IntOp.cmpi .eq w (BitVec.ofNat 32 j) = 0#1 := by
      rcases BitVec.eq_zero_or_eq_one (IntOp.cmpi .eq w (BitVec.ofNat 32 j)) with h0 | h1
      · exact h0
      · exact absurd (IntOp.cmpi_eq.mp h1) hne
    rw [if_neg h, e0]
    norm_num

/-- THE ROW TIMES A COLUMN: the one-hot row of the word `w` summed against `x` is `x w`. -/
theorem sum_mul {n : Nat} (hn : n ≤ 2 ^ 32) (w : BitVec 32) (hw : w.toNat < n) (x : Fin n → EReal) :
    ∑ j : Fin n, (FloatOps.sitofp (F := Ideal) .f32 ((IntOp.cmpi .eq w (BitVec.ofNat 32 j.val)).setWidth 32) : EReal) * x j
      = x ⟨w.toNat, hw⟩ := by
  rw [Finset.sum_eq_single (⟨w.toNat, hw⟩ : Fin n)]
  · rw [entry w _ (by omega), if_pos rfl, one_mul]
  · intro j _ hj
    rw [entry w _ (by have := j.isLt; omega), if_neg (fun e => hj (Fin.ext e.symm)), zero_mul]
  · intro h
    exact absurd (Finset.mem_univ _) h

end Idealize.ShloMosaic.OneHotRow

end
-- ==== Proof.Sampled.lean ====
/-
  The sampled embedding: what both programs compute, as one function of the argument arrays.

  Each of the 131072 samples `b` carries a label word. The label selects a row `j` of two small tables: a mean
  vector `mean[j, ·]` of 128 entries and a pair of spreads `spread[j, 0], spread[j, 1]`. The sample's noise is two
  numbers `noise[b, 0], noise[b, 1]` (the first two columns of a wider array). The result is the mean plus the
  two noise numbers, each scaled by the square of its spread, laid along the first two columns of a 128 × 128 basis:

      out[b, d] = (∑ r < 2, (spread[j, r] * spread[j, r] * noise[b, r]) * basis[d, r]) + mean[j, d].

  The row `j` is the label read as a signed number and clamped into 0 … 8. For a label that already lies in
  0 … 8 it is the label itself.
-/
import Idealize.ShloMosaic.PureOps.Ideal
import Idealize.ShloMosaic.Lib.ValueIdx
import Idealize.ShloMosaic.Lib.StableHlo.Predicate

noncomputable section

namespace Cert.Sampled

open Idealize.ShloMosaic Idealize.ShloMosaic.ValueIdx

/-- The table row a label word selects: the word read signed, clamped into 0 … 8. -/
def row (w : BitVec 32) : Fin 9 := ⟨min w.toInt.toNat 8, by omega⟩

/-- A label below 9 selects the row of its own number. -/
theorem row_of_lt {w : BitVec 32} (hw : w.toNat < 9) : row w = ⟨w.toNat, hw⟩ := by
  apply Fin.ext
  show min w.toInt.toNat 8 = w.toNat
  rw [StableHlo.Predicate.toInt_eq_toNat_of_lt (by omega)]
  simp only [Int.toNat_natCast]
  omega

/-- One of the two noise columns, as a column of a 128-column array. -/
def col (r : Fin 2) : Fin 128 := ⟨r.val, by omega⟩

/-- The result at sample `b`, coordinate `d`. -/
def entry (lab : IVec (⟨1, ![131072]⟩ : Shape) 32) (noise : FVec Ideal (⟨2, ![131072, 128]⟩ : Shape) .f32)
    (basis : FVec Ideal (⟨2, ![128, 128]⟩ : Shape) .f32) (mean : FVec Ideal (⟨2, ![9, 128]⟩ : Shape) .f32)
    (spread : FVec Ideal (⟨2, ![9, 2]⟩ : Shape) .f32) (b : Fin 131072) (d : Fin 128) : EReal :=
  (∑ r : Fin 2, (spread (ix2 (row (lab (ix1 b))) r) * spread (ix2 (row (lab (ix1 b))) r) * noise (ix2 b (col r)))
      * basis (ix2 d (col r)))
    + mean (ix2 (row (lab (ix1 b))) d)

/-- The whole result array. -/
def embedding (lab : IVec (⟨1, ![131072]⟩ : Shape) 32) (noise : FVec Ideal (⟨2, ![131072, 128]⟩ : Shape) .f32)
    (basis : FVec Ideal (⟨2, ![128, 128]⟩ : Shape) .f32) (mean : FVec Ideal (⟨2, ![9, 128]⟩ : Shape) .f32)
    (spread : FVec Ideal (⟨2, ![9, 2]⟩ : Shape) .f32) : FVec Ideal (⟨2, ![131072, 128]⟩ : Shape) .f32 :=
  fun i => entry lab noise basis mean spread (i 0) (i 1)

theorem embedding_apply (lab : IVec (⟨1, ![131072]⟩ : Shape) 32) (noise : FVec Ideal (⟨2, ![131072, 128]⟩ : Shape) .f32)
    (basis : FVec Ideal (⟨2, ![128, 128]⟩ : Shape) .f32) (mean : FVec Ideal (⟨2, ![9, 128]⟩ : Shape) .f32)
    (spread : FVec Ideal (⟨2, ![9, 2]⟩ : Shape) .f32) (b : Fin 131072) (d : Fin 128) :
    embedding lab noise basis mean spread (ix2 b d) = entry lab noise basis mean spread b d := rfl

end Cert.Sampled

end
-- ==== Proof.BlockValue.lean ====
/-
  What the kernel body computes on one block of 4096 samples.

  The body compares each sample's label with the column numbers 0 … 8, which gives each sample the row of the
  9 × 9 identity matrix that its label names. That row times the mean table is the label's row of means; times the
  spread table, the label's pair of spreads (a one-hot row against a column is the selected entry: every other term
  is `0 * x = 0`). The spreads are squared, multiplied by the sample's two noise numbers, and the resulting pair is
  multiplied into a 2 × 128 matrix (the first two columns of the basis, transposed); the means are added.
-/
import proofs.«418288_j39625368273137_3_alg».proof.Proof.Gen.KernelIdeal.Skeleton
import proofs.«418288_j39625368273137_3_alg».proof.Proof.LibPlainDot
import proofs.«418288_j39625368273137_3_alg».proof.Proof.LibOneHotRow
import proofs.«418288_j39625368273137_3_alg».proof.Proof.Sampled
import Idealize.ShloMosaic.Lib.Pipeline.Value

noncomputable section

namespace Cert.KernelIdeal.BlockValue

open Cert.KernelIdeal Cert.KernelIdeal.Gen Cert.Sampled
open Idealize.ShloMosaic Idealize.ShloMosaic.ValueIdx

/-- The block of one-hot rows: entry `(p, j)` tests whether sample `p`'s label is `j`. -/
abbrev oneHot (v0 : Vec Ideal S4096x1 .i32) : FVec Ideal S4096x9 .f32 :=
  sitofp .f32 (extui 32 (cmpi .eq (broadcastTo S4096x9 (shapeCast S4096x1 v0 shapeCasts_S4096x1_S4096x1) broadcasts_S4096x1_S4096x9)
    (iota .tc S4096x9 32 [1] iota_S4096x9_d1_w32)) natLt_1_32)

/-- One entry of the one-hot block, as a comparison of words. -/
theorem oneHot_apply (v0 : Vec Ideal S4096x1 .i32) (p : Fin 4096) (j : Fin 9) :
    oneHot v0 (ix2 p j)
      = FloatOps.sitofp (F := Ideal) .f32 ((IntOp.cmpi .eq (v0 (ix2 p (0 : Fin 1))) (BitVec.ofNat 32 j.val)).setWidth 32) := by
  show FloatOps.sitofp (F := Ideal) .f32 ((IntOp.cmpi .eq
      (broadcastTo S4096x9 (shapeCast S4096x1 v0 shapeCasts_S4096x1_S4096x1) broadcasts_S4096x1_S4096x9 (ix2 p j))
      (iota .tc S4096x9 32 [1] iota_S4096x9_d1_w32 (ix2 p j))).setWidth 32) = _
  rw [iota_single_apply, shapeCast_self,
    broadcastTo_apply v0 broadcasts_S4096x1_S4096x9 (ix2 p j) (ix2 p (0 : Fin 1)) (fun a => by
      match a with
      | ⟨0, _⟩ => show p.val = if (4096 : Nat) = 1 then 0 else p.val; rw [if_neg (by decide)]
      | ⟨1, _⟩ => rfl)]

/-- The one-hot block times a table of 9 rows: each sample gets its label's row. -/
theorem select_rows {D : Nat} (d : DotDims S4096x9 (⟨2, ![9, D]⟩ : Shape) (⟨2, ![4096, D]⟩ : Shape)) (hd : PlainDot.IsPlain d)
    (prec : Option ContractPrecision) (v0 : Vec Ideal S4096x1 .i32) (tbl : FVec Ideal (⟨2, ![9, D]⟩ : Shape) .f32)
    (p : Fin 4096) (c : Fin D) (hp : (v0 (ix2 p (0 : Fin 1))).toNat < 9) :
    FloatOps.matmul d prec (oneHot v0) tbl (constant (⟨2, ![4096, D]⟩ : Shape) .f32 0x00000000#32) (ix2 p c)
      = tbl (ix2 (row (v0 (ix2 p (0 : Fin 1)))) c) := by
  rw [hd.matmul_zero_apply]
  simp only [oneHot_apply]
  rw [OneHotRow.sum_mul (by norm_num) (v0 (ix2 p (0 : Fin 1))) hp (fun j => tbl (ix2 j c)), row_of_lt hp]

theorem plain_mean : PlainDot.IsPlain dot_S4096x9_S9x128_S4096x128_1_0_0_1_n_n := ⟨rfl, rfl, rfl, rfl, rfl, rfl⟩
theorem plain_spread : PlainDot.IsPlain dot_S4096x9_S9x2_S4096x2_1_0_0_1_n_n := ⟨rfl, rfl, rfl, rfl, rfl, rfl⟩
theorem plain_basis : PlainDot.IsPlain dot_S4096x2_S2x128_S4096x128_1_0_0_1_n_n := ⟨rfl, rfl, rfl, rfl, rfl, rfl⟩

/-- THE BODY'S RESULT at sample `p` of the block, coordinate `q`, for a label in 0 … 8: the label's means plus the
    noise pair, scaled by the squared spreads, against the two rows of the transposed basis block. -/
theorem payload_apply (v0 : Vec Ideal S4096x1 .i32) (v7 : Vec Ideal S9x128 .f32) (v9 : Vec Ideal S9x2 .f32)
    (v11 : Vec Ideal S4096x2 .f32) (v15 : Vec Ideal S2x128 .f32) (p : Fin 4096) (q : Fin 128)
    (hp : (v0 (ix2 p (0 : Fin 1))).toNat < 9) :
    k0_pay1 (F := Ideal) v0 v7 v9 v11 v15 (ix2 p q)
      = (∑ r : Fin 2, (v9 (ix2 (row (v0 (ix2 p (0 : Fin 1)))) r) * v9 (ix2 (row (v0 (ix2 p (0 : Fin 1)))) r) * v11 (ix2 p r))
          * v15 (ix2 r q))
        + v7 (ix2 (row (v0 (ix2 p (0 : Fin 1)))) q) := by
  unfold k0_pay1
  show FloatOps.addf (FloatOps.matmul dot_S4096x2_S2x128_S4096x128_1_0_0_1_n_n (some .fp32)
        (mulf (mulf (matmul dot_S4096x9_S9x2_S4096x2_1_0_0_1_n_n (some .fp32) (oneHot v0) v9 (constant S4096x2 .f32 0x00000000#32))
                    (matmul dot_S4096x9_S9x2_S4096x2_1_0_0_1_n_n (some .fp32) (oneHot v0) v9 (constant S4096x2 .f32 0x00000000#32)))
              (shapeCast S4096x2 v11 shapeCasts_S4096x2_S4096x2))
        (shapeCast S2x128 v15 shapeCasts_S2x128_S2x128) (constant S4096x128 .f32 0x00000000#32) (ix2 p q))
      (FloatOps.matmul dot_S4096x9_S9x128_S4096x128_1_0_0_1_n_n (some .fp32) (oneHot v0) v7 (constant S4096x128 .f32 0x00000000#32) (ix2 p q)) = _
  rw [select_rows _ plain_mean _ v0 v7 p q hp, plain_basis.matmul_zero_apply, shapeCast_self, shapeCast_self]
  refine congrArg (· + v7 (ix2 (row (v0 (ix2 p (0 : Fin 1)))) q)) (Finset.sum_congr rfl fun r _ => ?_)
  show (FloatOps.matmul dot_S4096x9_S9x2_S4096x2_1_0_0_1_n_n (some .fp32) (oneHot v0) v9 (constant S4096x2 .f32 0x00000000#32) (ix2 p r)
        * FloatOps.matmul dot_S4096x9_S9x2_S4096x2_1_0_0_1_n_n (some .fp32) (oneHot v0) v9 (constant S4096x2 .f32 0x00000000#32) (ix2 p r)
        * v11 (ix2 p r)) * v15 (ix2 r q) = _
  rw [select_rows _ plain_spread _ v0 v9 p r hp]

end Cert.KernelIdeal.BlockValue

end
-- ==== Proof.HostValue.lean ====
/-
  What the kernel's three computed operands hold when the grid starts, read at an index.

  Before the grid runs the program cuts the first two columns out of the noise array, clamps every label into
  0 … 8 and lays the labels out as a column, and cuts the first two columns out of the basis and transposes them
  into two rows. At an index these are: the noise array at the same row and column; the label itself when it is
  already in 0 … 8; the basis at the transposed position.
-/
import proofs.«418288_j39625368273137_3_alg».proof.Proof.Gen.KernelIdeal.Frame
import proofs.«418288_j39625368273137_3_alg».proof.Proof.Sampled
import Idealize.ShloMosaic.Lib.StableHlo.Run
import Idealize.ShloMosaic.Lib.ValueLayout
import Idealize.ShloMosaic.PureOps.Ideal

noncomputable section

namespace Cert.KernelIdeal.HostValue

open Cert.KernelIdeal Cert.KernelIdeal.Gen Cert.Sampled
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The noise operand: the first two columns of the noise array. -/
theorem noise_eq (c : Dev nD) : (V m c main_v0 : S131072x2.Idx → EReal)
    = extractStridedSlice S131072x2 ![0, 0] (m ((c : Thread nD τ).loc main_arg2)) slices_S131072x128_S131072x2_0_0 := by
  dsimp only [Gen.V]
  simp only [Gen.hostOps0, Gen.hostOps0_1, Gen.hostOps0_2, List.flatten_cons, List.flatten_nil, List.append_nil,
    List.cons_append, List.nil_append]
  after_results <;> rfl

/-- The label operand: every label clamped from below by 0 and from above by 8, as a column. -/
theorem labels_eq (c : Dev nD) : (V m c main_v2 : S131072x1.Idx → BitVec 32)
    = shapeCast S131072x1 (minsi (broadcastInDim S131072 ![] bcast_S_S131072 (constantI S_ 32 8#32))
        (maxsi (broadcastInDim S131072 ![] bcast_S_S131072 (constantI S_ 32 0#32)) (m ((c : Thread nD τ).loc main_arg1))))
        shapeCasts_S131072_S131072x1 := by
  dsimp only [Gen.V]
  simp only [Gen.hostOps0, Gen.hostOps0_1, Gen.hostOps0_2, List.flatten_cons, List.flatten_nil, List.append_nil,
    List.cons_append, List.nil_append]
  after_results <;> rfl

/-- The basis operand: the first two columns of the basis, transposed into two rows. -/
theorem basis_eq (c : Dev nD) : (V m c main_v4 : S2x128.Idx → EReal)
    = transpose S2x128 [1, 0] (extractStridedSlice S128x2 ![0, 0] (m ((c : Thread nD τ).loc main_arg3)) slices_S128x128_S128x2_0_0)
        transposes_S128x2_S2x128_1_0 := by
  dsimp only [Gen.V]
  simp only [Gen.hostOps0, Gen.hostOps0_1, Gen.hostOps0_2, List.flatten_cons, List.flatten_nil, List.append_nil,
    List.cons_append, List.nil_append]
  after_results <;> rfl

/-- The noise operand at `(b, r)` is the noise array at `(b, r)`. -/
theorem noise_apply (c : Dev nD) (b : Fin 131072) (r : Fin 2) :
    (V m c main_v0 : S131072x2.Idx → EReal) (ix2 b r) = m ((c : Thread nD τ).loc main_arg2) (ix2 b (col r)) := by
  rw [noise_eq]
  exact slice2_axis1_apply 0 _ slices_S131072x128_S131072x2_0_0 b r (col r) (Nat.zero_add _).symm

/-- The basis operand at `(r, q)` is the basis at `(q, r)`. -/
theorem basis_apply (c : Dev nD) (r : Fin 2) (q : Fin 128) :
    (V m c main_v4 : S2x128.Idx → EReal) (ix2 r q) = m ((c : Thread nD τ).loc main_arg3) (ix2 q (col r)) := by
  rw [basis_eq, transpose_ix2_apply _ transposes_S128x2_S2x128_1_0 r q]
  exact slice2_axis1_apply 0 _ slices_S128x128_S128x2_0_0 q r (col r) (Nat.zero_add _).symm

/-- Clamping a label that is already in 0 … 8 leaves it. -/
theorem clamp_id {w : BitVec 32} (hw : w.toNat < 9) : IntOp.minsi 8#32 (IntOp.maxsi 0#32 w) = w := by
  have hi : w.toInt = w.toNat := StableHlo.Predicate.toInt_eq_toNat_of_lt (by omega)
  have h0 : (0#32 : BitVec 32).toInt = 0 := by decide
  have h8 : (8#32 : BitVec 32).toInt = 8 := by decide
  have e1 : IntOp.maxsi 0#32 w = w := by
    unfold IntOp.maxsi
    rw [if_neg]
    rw [BitVec.slt_iff_toInt_lt, hi, h0]
    omega
  rw [e1]
  unfold IntOp.minsi
  rw [if_neg]
  rw [BitVec.slt_iff_toInt_lt, hi, h8]
  omega

/-- The label operand at sample `b` is the label itself, when it is in 0 … 8. -/
theorem labels_apply (c : Dev nD) (b : Fin 131072) (hb : (m ((c : Thread nD τ).loc main_arg1) (ix1 b)).toNat < 9) :
    (V m c main_v2 : S131072x1.Idx → BitVec 32) (ix2 b (0 : Fin 1)) = m ((c : Thread nD τ).loc main_arg1) (ix1 b) := by
  rw [labels_eq, shapeCast_apply _ shapeCasts_S131072_S131072x1 (ix2 b (0 : Fin 1)) (ix1 b) (by
    rw [Shape.rowMajor_val_one, Shape.rowMajor_val_two]
    show b.val = b.val * 1 + 0
    omega)]
  show IntOp.minsi (broadcastInDim S131072 ![] bcast_S_S131072 (constantI S_ 32 8#32) (ix1 b))
      (IntOp.maxsi (broadcastInDim S131072 ![] bcast_S_S131072 (constantI S_ 32 0#32) (ix1 b)) (m ((c : Thread nD τ).loc main_arg1) (ix1 b))) = _
  exact clamp_id hb

end Cert.KernelIdeal.HostValue

end
-- ==== Proof.ArrayValue.lean ====
/-
  From blocks to the array: after the grid has run, the kernel's result array is the sampled embedding.

  Grid point `t` (of 32) works on samples `4096 t … 4096 t + 4095`: it reads that block of the noise pairs and of the
  label column, the whole mean and spread tables and the whole two-row basis operand, and writes back the 4096 × 128
  block of results. Sample `p` of block `t` is sample `4096 t + p` of the array, so what point `t` writes back is
  block `t` of the embedding; the 32 blocks tile the array (row `b` lies in block `b / 4096`), so the array is the
  embedding everywhere.
-/
import proofs.«418288_j39625368273137_3_alg».proof.Proof.Gen.KernelIdeal.Value
import proofs.«418288_j39625368273137_3_alg».proof.Proof.BlockValue
import proofs.«418288_j39625368273137_3_alg».proof.Proof.HostValue

set_option maxRecDepth 16384

noncomputable section

namespace Cert.KernelIdeal.ArrayValue

open Cert.KernelIdeal Cert.KernelIdeal.Gen Cert.KernelIdeal.Value Cert.Sampled
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The embedding of the argument arrays as launched on core `c`. -/
abbrev result (c : Dev nD) : S131072x128.Idx → EReal :=
  embedding (m ((c : Thread nD τ).loc main_arg1)) (m ((c : Thread nD τ).loc main_arg2)) (m ((c : Thread nD τ).loc main_arg3))
    (m ((c : Thread nD τ).loc main_arg4)) (m ((c : Thread nD τ).loc main_arg5))

/-- Which block each window reads or writes at grid point `t`: the noise, label and result windows block `t` of
    their rows; the three small operands their one block. Decided over the 32 points. -/
theorem block_numbers : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the embedding, when every label is in 0 … 8. -/
theorem flushed_eq (c : Dev nD) (hlab : ∀ j, (m ((c : Thread nD τ).loc main_arg1) j).toNat < 9) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero origin]
  simp only [View.ld_unit_zero (S := S4096x1) origin, View.ld_unit_zero (S := S9x128) origin, View.ld_unit_zero (S := S9x2) origin,
    View.ld_unit_zero (S := S4096x2) origin, View.ld_unit_zero (S := S2x128) origin]
  obtain ⟨e00, e01, e10, e11, e20, e21, e30, e31, e40, e41, e50, e51⟩ := block_numbers t
  have ht : t.val < 32 := t.isLt
  funext j
  obtain ⟨p, q, rfl⟩ : ∃ (p : Fin 4096) (q : Fin 128), j = ix2 p q := ⟨j 0, j 1, eq_ix2 j⟩
  show k0_pay1 (F := Ideal) (iblk m c 1 t) (iblk m c 2 t) (iblk m c 3 t) (iblk m c 0 t) (iblk m c 4 t) (ix2 p q)
    = result m c (((cfg0.win 5).blk t).view.emb (ix2 p q))
  have hp : p.val < 4096 := p.isLt
  -- sample `p` of block `t` is sample `4096 t + p` of the array
  have ho : ((cfg0.win 5).blk t).view.emb (ix2 p q) = ix2 (⟨t.val * 4096 + p.val, by omega⟩ : Fin 131072) q :=
    funext fun a => Fin.ext (by
      match a with
      | ⟨0, _⟩ => show win0_5.index t (0 : Fin 2) * 4096 + 1 * p.val = t.val * 4096 + p.val; omega
      | ⟨1, _⟩ => show win0_5.index t (1 : Fin 2) * 128 + 1 * q.val = q.val; omega)
  -- the label block
  have hl : iblk m c 1 t (ix2 p (0 : Fin 1)) = m ((c : Thread nD τ).loc main_arg1) (ix1 (⟨t.val * 4096 + p.val, by omega⟩ : Fin 131072)) := by
    show (V m c main_v2 : S131072x1.Idx → BitVec 32) (((cfg0.win 1).blk t).view.emb (ix2 p (0 : Fin 1))) = _
    have he : ((cfg0.win 1).blk t).view.emb (ix2 p (0 : Fin 1)) = ix2 (⟨t.val * 4096 + p.val, by omega⟩ : Fin 131072) (0 : Fin 1) :=
      funext fun a => Fin.ext (by
        match a with
        | ⟨0, _⟩ => show win0_1.index t (0 : Fin 2) * 4096 + 1 * p.val = t.val * 4096 + p.val; omega
        | ⟨1, _⟩ => show win0_1.index t (1 : Fin 2) * 1 + 1 * 0 = 0; omega)
    rw [he]
    exact HostValue.labels_apply m c _ (hlab _)
  -- the noise block
  have hn : ∀ r : Fin 2, iblk m c 0 t (ix2 p r) = m ((c : Thread nD τ).loc main_arg2) (ix2 (⟨t.val * 4096 + p.val, by omega⟩ : Fin 131072) (col r)) := by
    intro r
    have hr : r.val < 2 := r.isLt
    show (V m c main_v0 : S131072x2.Idx → EReal) (((cfg0.win 0).blk t).view.emb (ix2 p r)) = _
    have he : ((cfg0.win 0).blk t).view.emb (ix2 p r) = ix2 (⟨t.val * 4096 + p.val, by omega⟩ : Fin 131072) r :=
      funext fun a => Fin.ext (by
        match a with
        | ⟨0, _⟩ => show win0_0.index t (0 : Fin 2) * 4096 + 1 * p.val = t.val * 4096 + p.val; omega
        | ⟨1, _⟩ => show win0_0.index t (1 : Fin 2) * 2 + 1 * r.val = r.val; omega)
    rw [he]
    exact HostValue.noise_apply m c _ r
  -- the two-row basis operand, whole
  have hb : ∀ r : Fin 2, iblk m c 4 t (ix2 r q) = m ((c : Thread nD τ).loc main_arg3) (ix2 q (col r)) := by
    intro r
    show (V m c main_v4 : S2x128.Idx → EReal) (((cfg0.win 4).blk t).view.emb (ix2 r q)) = _
    have he : ((cfg0.win 4).blk t).view.emb (ix2 r q) = ix2 r q :=
      funext fun a => Fin.ext (by
        match a with
        | ⟨0, _⟩ => show win0_4.index t (0 : Fin 2) * 2 + 1 * r.val = r.val; omega
        | ⟨1, _⟩ => show win0_4.index t (1 : Fin 2) * 128 + 1 * q.val = q.val; omega)
    rw [he]
    exact HostValue.basis_apply m c r q
  -- the mean table, whole
  have hm : ∀ j : Fin 9, iblk m c 2 t (ix2 j q) = m ((c : Thread nD τ).loc main_arg4) (ix2 j q) := by
    intro j
    show (V m c main_arg4) (((cfg0.win 2).blk t).view.emb (ix2 j q)) = _
    have he : ((cfg0.win 2).blk t).view.emb (ix2 j q) = ix2 j q :=
      funext fun a => Fin.ext (by
        match a with
        | ⟨0, _⟩ => show win0_2.index t (0 : Fin 2) * 9 + 1 * j.val = j.val; omega
        | ⟨1, _⟩ => show win0_2.index t (1 : Fin 2) * 128 + 1 * q.val = q.val; omega)
    rw [he, V_main_arg4]
  -- the spread table, whole
  have hs : ∀ (j : Fin 9) (r : Fin 2), iblk m c 3 t (ix2 j r) = m ((c : Thread nD τ).loc main_arg5) (ix2 j r) := by
    intro j r
    show (V m c main_arg5) (((cfg0.win 3).blk t).view.emb (ix2 j r)) = _
    have he : ((cfg0.win 3).blk t).view.emb (ix2 j r) = ix2 j r :=
      funext fun a => Fin.ext (by
        match a with
        | ⟨0, _⟩ => show win0_3.index t (0 : Fin 2) * 9 + 1 * j.val = j.val; omega
        | ⟨1, _⟩ => show win0_3.index t (1 : Fin 2) * 2 + 1 * r.val = r.val; omega)
    rw [he, V_main_arg5]
  refine (BlockValue.payload_apply (iblk m c 1 t) (iblk m c 2 t) (iblk m c 3 t) (iblk m c 0 t) (iblk m c 4 t) p q ?_).trans ?_
  · rw [hl]; exact hlab _
  rw [ho, hl]
  show _ = entry (m ((c : Thread nD τ).loc main_arg1)) (m ((c : Thread nD τ).loc main_arg2)) (m ((c : Thread nD τ).loc main_arg3))
    (m ((c : Thread nD τ).loc main_arg4)) (m ((c : Thread nD τ).loc main_arg5)) (⟨t.val * 4096 + p.val, by omega⟩ : Fin 131072) q
  unfold entry
  simp only [hn, hb, hm, hs]

/-- An index of the array is in point `t`'s block iff each coordinate is in the block's range on its axis. -/
theorem mem_block (t : Fin cfg0.N) (i : S131072x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v5).slice (win0_5.rect t)).set ↔ _
  rw [View.set_slice_whole, Rect.mem_set_unit]
  exact Iff.rfl

/-- The 32 blocks cover the array: row `b` lies in block `b / 4096`. -/
theorem cover (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  have hT : (i 0).val / 4096 < 32 := by omega
  obtain ⟨-, -, -, -, -, -, -, -, -, -, e50, e51⟩ := block_numbers ⟨(i 0).val / 4096, hT⟩
  have e50' : win0_5.index ⟨(i 0).val / 4096, hT⟩ (0 : Fin 2) = (i 0).val / 4096 := e50
  refine ⟨⟨(i 0).val / 4096, hT⟩, flush0_5 _, ?_⟩
  rw [mem_block]
  intro a
  match a with
  | ⟨0, _⟩ =>
    show win0_5.index ⟨(i 0).val / 4096, hT⟩ (0 : Fin 2) * 4096 ≤ (i 0).val
      ∧ (i 0).val < win0_5.index ⟨(i 0).val / 4096, hT⟩ (0 : Fin 2) * 4096 + 4096
    omega
  | ⟨1, _⟩ =>
    show win0_5.index ⟨(i 0).val / 4096, hT⟩ (1 : Fin 2) * 128 ≤ (i 1).val
      ∧ (i 1).val < win0_5.index ⟨(i 0).val / 4096, hT⟩ (1 : Fin 2) * 128 + 128
    omega

/-- THE ARRAY after the run is the embedding of the arguments. -/
theorem final (c : Dev nD) (hlab : ∀ j, (m ((c : Thread nD τ).loc main_arg1) j).toNat < 9) :
    (dats m 0 c).arrAt 5 cfg0.N = result m c :=
  (dats m 0 c).arrAt_eq_of_cover 5 (result m c) (fun t _ => flushed_eq m c hlab t) cover

/-- The kernel's run, with its result array named: the embedding of the arguments; the arguments unchanged. -/
theorem run (hlab : ∀ (c : Dev nD) j, (m ((c : Thread nD τ).loc main_arg1) j).toNat < 9) :
    θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hlab c)), (h c).2⟩) (run_blocks m ρ)

end Cert.KernelIdeal.ArrayValue

end
-- ==== Proof.LibRowGather.lean ====
/-
  A gather of whole rows, read at an index.

  What `x[idx]` of a table `x : [N, D]` at a column of indices `idx : [E, 1]` lowers to: a `stablehlo.gather` with
  offset_dims `[1]`, collapsed_slice_dims `[0]`, start_index_map `[0]`, index_vector_dim `1` and slice sizes `[1, D]`.
  Element `(e, c)` of the result is the table's element `(r, c)`, where `r` is the start index `idx[e, 0]` read as a
  signed integer and clamped into `0 … N - 1`.

  The road is the one the library takes for a flat array (`gather_take_apply`): the operand index is, per operand axis,
  clamped start + batching coordinate + offset coordinate. On axis `0` (collapsed, named by the start index map) only the
  clamped start is left; on axis `1` (the offset axis) only the offset coordinate. The lemma is first proved for the
  dimension numbers written out (`rowDims`), then for any record whose fields have those values.
-/
import Idealize.ShloMosaic.PureOps.Ideal
import Idealize.ShloMosaic.Lib.ValueIdx

noncomputable section

namespace Cert.LibRowGather

open Idealize.ShloMosaic Idealize.ShloMosaic.ValueIdx

section RowGather
variable {α : Type}

/-- The row gather's dimension numbers written out, for a table `[N, D]`, start indices `[E, 1]` and result `[E, D]`.
    The start indices' batching axes `sb` are left open: the conditions `wf` force the list to be empty, and nothing
    below reads it. -/
abbrev rowDims (N E D : Nat) (sb : List (Fin (⟨2, ![E, 1]⟩ : Shape).rank))
    (wf : GatherDims.WF ⟨2, ![N, D]⟩ ⟨2, ![E, 1]⟩ ⟨2, ![E, D]⟩ [1] [0] [] [0] sb 1 ![1, D]) :
    GatherDims ⟨2, ![N, D]⟩ ⟨2, ![E, 1]⟩ ⟨2, ![E, D]⟩ where
  offsetDims := [1]
  collapsedSliceDims := [0]
  operandBatchingDims := []
  startIndicesBatchingDims := sb
  startIndexMap := [0]
  indexVectorDim := 1
  sliceSizes := ![1, D]
  wf := wf

variable {N E D w : Nat} (sb : List (Fin (⟨2, ![E, 1]⟩ : Shape).rank))
  (wf : GatherDims.WF ⟨2, ![N, D]⟩ ⟨2, ![E, 1]⟩ ⟨2, ![E, D]⟩ [1] [0] [] [0] sb 1 ![1, D])

/-- Where result element `(e, c)` reads its start index: the only component of the start index map is component `0`,
    the result's one batch axis (axis `0`) is the start indices' axis `0`, and the index vector's axis (axis `1`, of
    size one) gets the component's number, so the place is `[e, 0]`. -/
theorem rowDims_siIdx (e : Fin E) (c : Fin D) (h0 : (0 : Fin 2) ∈ (rowDims N E D sb wf).startIndexMap) :
    (rowDims N E D sb wf).siIdx (ix2 e c) ⟨List.idxOf (0 : Fin 2) (rowDims N E D sb wf).startIndexMap,
        List.idxOf_lt_length_iff.2 h0⟩ = ix2 e (0 : Fin 1) := by
  funext b
  refine Fin.ext ?_
  match b with
  | ⟨0, _⟩ => rfl
  | ⟨1, _⟩ => rfl

/-- Axis `0` of the operand index (the collapsed axis, named by the start index map): the start index clamped into
    `0 … N - 1`; no batching coordinate (there are no batching axes) and no offset (the axis is collapsed). -/
theorem rowDims_axis0 (idx : IVec (⟨2, ![E, 1]⟩ : Shape) w) (e : Fin E) (c : Fin D) :
    (rowDims N E D sb wf).start (ix2 e c) idx 0 + (rowDims N E D sb wf).batchCoord (ix2 e c) 0
        + (rowDims N E D sb wf).offCoord (ix2 e c) 0
      = min (idx (ix2 e (0 : Fin 1))).toInt.toNat (N - 1) := by
  have h0 : (0 : Fin 2) ∈ (rowDims N E D sb wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  show (rowDims N E D sb wf).start (ix2 e c) idx 0 = _
  unfold GatherDims.start
  rw [dif_pos h0, rowDims_siIdx sb wf e c h0]
  rfl

/-- Axis `1` of the operand index (the one offset axis, not named by the start index map): the slice starts at `0`,
    there is no batching coordinate, and the offset is the result's coordinate on its offset axis, `c`. -/
theorem rowDims_axis1 (idx : IVec (⟨2, ![E, 1]⟩ : Shape) w) (e : Fin E) (c : Fin D) :
    (rowDims N E D sb wf).start (ix2 e c) idx 1 + (rowDims N E D sb wf).batchCoord (ix2 e c) 1
        + (rowDims N E D sb wf).offCoord (ix2 e c) 1
      = c.val := by
  have h10 : (1 : Fin 2) ≠ 0 := by decide
  have h1 : (1 : Fin 2) ∉ (rowDims N E D sb wf).startIndexMap := fun h => h10 (List.mem_singleton.mp h)
  have hk : (1 : Fin 2) ∈ (rowDims N E D sb wf).sKept :=
    (GatherDims.mem_sKept _ _).mpr ⟨fun h => h10 (List.mem_singleton.mp h), List.not_mem_nil⟩
  rw [GatherDims.batchCoord_eq_zero _ _ _ List.not_mem_nil, Nat.add_zero]
  unfold GatherDims.start GatherDims.offCoord
  rw [dif_neg h1, dif_pos hk, Nat.zero_add]
  rfl

/-- The row gather of the written-out dimension numbers, read at `(e, c)`. -/
theorem rowDims_apply (hN : 0 < N) (x : (⟨2, ![N, D]⟩ : Shape).Idx → α) (idx : IVec (⟨2, ![E, 1]⟩ : Shape) w)
    (e : Fin E) (c : Fin D) :
    Host.gather (rowDims N E D sb wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact rowDims_axis0 sb wf idx e c
  | ⟨1, _⟩ => exact rowDims_axis1 sb wf idx e c

end RowGather

/-- THE ROW GATHER READ AT `(e, c)`: for any dimension-number record of the row-gather form, the operand at the row the
    start index `idx[e, 0]` names (signed, clamped into `0 … N - 1`) and the same column. -/
theorem rowGather_apply {α : Type} {N E D w : Nat} (hN : 0 < N)
    (g : GatherDims (⟨2, ![N, D]⟩ : Shape) (⟨2, ![E, 1]⟩ : Shape) (⟨2, ![E, D]⟩ : Shape))
    (hod : g.offsetDims = [1]) (hcs : g.collapsedSliceDims = [0]) (hob : g.operandBatchingDims = [])
    (hsm : g.startIndexMap = [0]) (hiv : g.indexVectorDim = 1) (hss : g.sliceSizes = ![1, D])
    (x : (⟨2, ![N, D]⟩ : Shape).Idx → α) (idx : IVec (⟨2, ![E, 1]⟩ : Shape) w) (e : Fin E) (c : Fin D) :
    Host.gather g x idx (ix2 e c)
      = x (ix2 (⟨min (idx (ix2 e (0 : Fin 1))).toInt.toNat (N - 1), by omega⟩ : Fin N) c) := by
  -- a record with these field values IS the written-out one: name its fields and substitute the six equations
  obtain ⟨od, cs, ob, sb, sm, iv, ss, wf⟩ := g
  dsimp only at hod hcs hob hsm hiv hss
  subst hod hcs hob hsm hiv hss
  exact rowDims_apply sb wf hN x idx e c

end Cert.LibRowGather

end
-- ==== Proof.RefValue.lean ====
/-
  The reference computes the sampled embedding.

  The reference wraps a negative label by adding 9, gathers the selected rows of the two tables (a gather clamps
  its row number into 0 … 8), squares the gathered spreads, multiplies by the first two noise columns, contracts
  the result against the first two columns of the basis (rows against rows), and adds the gathered means. For a
  label in 0 … 8 the wrap does nothing and the clamp does nothing, so the row is the label's own, and the result,
  index by index, is `Sampled.embedding`.
-/
import proofs.«418288_j39625368273137_3_alg».proof.Proof.Gen.ReferenceIdeal.Read
import proofs.«418288_j39625368273137_3_alg».proof.Proof.LibRowGather
import proofs.«418288_j39625368273137_3_alg».proof.Proof.Sampled

noncomputable section

namespace Cert.ReferenceIdeal.RefValue

open Cert.ReferenceIdeal Cert.ReferenceIdeal.Gen Cert.ReferenceIdeal.Read Cert.Sampled
open Idealize.ShloMosaic Idealize.ShloMosaic.ValueIdx

/-- A label in 0 … 8 is not negative as a signed word. -/
theorem not_negative {w : BitVec 32} (hw : w.toNat < 9) : IntOp.cmpi .slt w 0#32 = 0#1 := by
  rcases BitVec.eq_zero_or_eq_one (IntOp.cmpi .slt w 0#32) with h0 | h1
  · exact h0
  · have h := IntOp.cmpi_slt.mp h1
    rw [StableHlo.Predicate.toInt_eq_toNat_of_lt (by omega)] at h
    exact absurd h (by simp)

/-- The wrapped label column read at sample `b` (the one feeding the gather of the means): the label itself. -/
theorem wrapped_mean (x1 : IVec S131072 32) (hlab : ∀ j, (x1 j).toNat < 9) (b : Fin 131072) :
    val_main_v5 (F := Ideal) x1 (ix2 b (0 : Fin 1)) = x1 (ix1 b) := by
  have e : idx_main_v5 (ix2 b (0 : Fin 1)) = ix1 b := funext fun a => by match a with | ⟨0, _⟩ => rfl
  rw [val_main_v5_apply, e, val_main_v4_apply, val_main_v1_apply, val_main_v0_apply, val_main_c_apply,
    not_negative (hlab _), select_zero]

/-- The wrapped label column read at sample `b` (the one feeding the gather of the spreads): the label itself. -/
theorem wrapped_spread (x1 : IVec S131072 32) (hlab : ∀ j, (x1 j).toNat < 9) (b : Fin 131072) :
    val_main_v12 (F := Ideal) x1 (ix2 b (0 : Fin 1)) = x1 (ix1 b) := by
  have e : idx_main_v12 (ix2 b (0 : Fin 1)) = ix1 b := funext fun a => by match a with | ⟨0, _⟩ => rfl
  rw [val_main_v12_apply, e, val_main_v11_apply, val_main_v8_apply, val_main_v7_apply, val_main_c_1_apply,
    not_negative (hlab _), select_zero]

/-- The gathered means at `(b, d)`: the mean table at the label's row. -/
theorem gathered_mean (x1 : IVec S131072 32) (x4 : FVec Ideal S9x128 .f32) (hlab : ∀ j, (x1 j).toNat < 9)
    (b : Fin 131072) (d : Fin 128) :
    val_main_v6 (F := Ideal) x1 x4 (ix2 b d) = x4 (ix2 (row (x1 (ix1 b))) d) := by
  unfold val_main_v6
  rw [Cert.LibRowGather.rowGather_apply (by decide) _ rfl rfl rfl rfl rfl rfl]
  refine congrArg (fun j => x4 (ix2 j d)) (Fin.ext ?_)
  show min (BitVec.toInt (val_main_v5 (F := Ideal) x1 (ix2 b (0 : Fin 1)))).toNat (9 - 1) = min (BitVec.toInt (x1 (ix1 b))).toNat 8
  rw [wrapped_mean x1 hlab b]

/-- The gathered spreads at `(b, r)`: the spread table at the label's row. -/
theorem gathered_spread (x1 : IVec S131072 32) (x5 : FVec Ideal S9x2 .f32) (hlab : ∀ j, (x1 j).toNat < 9)
    (b : Fin 131072) (r : Fin 2) :
    val_main_v13 (F := Ideal) x1 x5 (ix2 b r) = x5 (ix2 (row (x1 (ix1 b))) r) := by
  unfold val_main_v13
  rw [Cert.LibRowGather.rowGather_apply (by decide) _ rfl rfl rfl rfl rfl rfl]
  refine congrArg (fun j => x5 (ix2 j r)) (Fin.ext ?_)
  show min (BitVec.toInt (val_main_v12 (F := Ideal) x1 (ix2 b (0 : Fin 1)))).toNat (9 - 1) = min (BitVec.toInt (x1 (ix1 b))).toNat 8
  rw [wrapped_spread x1 hlab b]

/-- THE REFERENCE'S RESULT is the sampled embedding of its arguments, for labels in 0 … 8. -/
theorem result_eq (x1 : IVec S131072 32) (x2 : FVec Ideal S131072x128 .f32) (x3 : FVec Ideal S128x128 .f32)
    (x4 : FVec Ideal S9x128 .f32) (x5 : FVec Ideal S9x2 .f32) (hlab : ∀ j, (x1 j).toNat < 9) :
    val_main_v19 (F := Ideal) x1 x2 x3 x4 x5 = embedding x1 x2 x3 x4 x5 := by
  funext i
  obtain ⟨b, d, rfl⟩ : ∃ (b : Fin 131072) (d : Fin 128), i = ix2 b d := ⟨i 0, i 1, eq_ix2 i⟩
  have el : ∀ k : Fin 2, lidx_main_v18 (ix2 b d) k = ix2 b k := fun k =>
    funext fun a => Fin.ext (by match a with | ⟨0, _⟩ => rfl | ⟨1, _⟩ => rfl)
  have er : ∀ k : Fin 2, ridx_main_v18 (ix2 b d) k = ix2 d k := fun k =>
    funext fun a => Fin.ext (by match a with | ⟨0, _⟩ => rfl | ⟨1, _⟩ => rfl)
  have en : ∀ k : Fin 2, idx_main_v15 (ix2 b k) = ix2 b (col k) := fun k =>
    funext fun a => Fin.ext (by match a with | ⟨0, _⟩ => rfl | ⟨1, _⟩ => rfl)
  have eb : ∀ k : Fin 2, idx_main_v17 (ix2 d k) = ix2 d (col k) := fun k =>
    funext fun a => Fin.ext (by match a with | ⟨0, _⟩ => rfl | ⟨1, _⟩ => rfl)
  rw [val_main_v19_apply, val_main_v18_apply, gathered_mean x1 x4 hlab, embedding_apply]
  unfold entry
  simp only [el, er, val_main_v16_apply, val_main_v14_apply, val_main_v15_apply, val_main_v17_apply, en, eb,
    gathered_spread x1 x5 hlab, Ideal.mulf_def, Ideal.addf_def]

end Cert.ReferenceIdeal.RefValue

end
-- ==== Proof.LabelRange.lean ====
/-
  What the precondition says of the labels.

  The precondition is a conjunction: five "every entry is finite" tests, one per float argument, and a last test
  that every label `w` satisfies `0 ≤ w` and `w < 9` as a signed number. When the whole conjunction is true, the
  last test is, at every sample; and a signed word between 0 and 8 is the same number read unsigned.
-/
import proofs.«418288_j39625368273137_3_alg».proof.Pre_finite_inputs
import Idealize.ShloMosaic.PureOps.Ideal
import Idealize.ShloMosaic.Lib.Affine
import Idealize.ShloMosaic.Lib.ReduceAll
import Idealize.ShloMosaic.Lib.ValueIdx

noncomputable section

namespace Cert.Pre_finite_inputs.LabelRange

open Cert.Pre_finite_inputs Idealize.ShloMosaic

variable [Facts]
open Facts

instance : Subsingleton S_.Idx := ⟨fun _ _ => funext fun d => d.elim0⟩

/-- Under the precondition every label is one of 0 … 8. -/
theorem label_lt (a0 : FVec Ideal S131072x4 .f32) (a1 : IVec S131072 32) (a2 : FVec Ideal S131072x128 .f32)
    (a3 : FVec Ideal S128x128 .f32) (a4 : FVec Ideal S9x128 .f32) (a5 : FVec Ideal S9x2 .f32)
    (h : fn (F := Ideal) a0 a1 a2 a3 a4 a5 = fun _ => 1#1) (j : S131072.Idx) : (a1 j).toNat < 9 := by
  have h0 := congrFun h ValueIdx.ix0
  dsimp only [fn, fn_part1] at h0
  have h1 := (IntOp.andi_eq_one.mp h0).2
  have h2 := IntOp.andi_eq_one.mp (Host.reduce_andi_all _ _ _ _ _ h1 j)
  have hge : (0#32 : BitVec 32).toInt ≤ (a1 j).toInt := IntOp.cmpi_sge.mp h2.1
  have hlt : (a1 j).toInt < (9#32 : BitVec 32).toInt := IntOp.cmpi_slt.mp h2.2
  have e0 : (0#32 : BitVec 32).toInt = 0 := by decide
  have e9 : (9#32 : BitVec 32).toInt = 9 := by decide
  rw [e0] at hge
  rw [e9] at hlt
  rw [BitVec.toInt_eq_toNat_cond] at hge hlt
  have := (a1 j).isLt
  split at hge <;> omega

end Cert.Pre_finite_inputs.LabelRange

end
-- ==== Proof.lean ====
/-
  A sampled embedding computed two ways: by one-hot matrix products on a grid of blocks, and by gathers.

  Every one of 131072 samples has an integer label. Both programs return, for sample `b` and coordinate `d < 128`,

      (∑ r < 2, (spread[j, r]² · noise[b, r]) · basis[d, r]) + mean[j, d],

  where `j` is the row of the 9-row tables `mean` and `spread` that the sample's label names.

  The reference reads row `j` with a gather, after wrapping a negative label around (label + 9), and a gather clamps
  its row number into 0 … 8. The kernel clamps the label into 0 … 8 first, and then, on each block of 4096 samples,
  multiplies the block of one-hot rows "label = column number" into each table; over the extended reals a one-hot
  row against a column is exactly the selected entry (`0 · x = 0` for every `x`), so this too reads row `j`. The two
  ways of naming the row agree when the label is one of 0 … 8 — an index into the 9 rows —, which is what the
  precondition states of every label (beside finiteness of the float arguments, which the argument never uses:
  the only laws needed are `0 · x = 0`, `1 · x = x` and `0 + x = x`, true of every extended real). For a label in
  −8 … −1 the two programs read different rows, so the range condition cannot be dropped.

  The rest is layout. The kernel's contraction is over the two rows of the transposed basis block, the reference's
  is rows against rows of the untransposed one: the same two products. Sample `p` of block `t` is sample
  `4096 t + p`, and the 32 blocks tile the result array.

  Files: `Sampled` (the function), `RefValue` (the reference computes it), `BlockValue` (the kernel body on one
  block), `HostValue` (the kernel's three prepared operands), `ArrayValue` (blocks to array, the kernel's run),
  `LabelRange` (the precondition read at a label); `LibOneHotRow`, `LibPlainDot`, `LibRowGather` (general lemmas).
-/
import proofs.«418288_j39625368273137_3_alg».proof.Defs
import proofs.«418288_j39625368273137_3_alg».proof.Proof.Gen.Kernel
import proofs.«418288_j39625368273137_3_alg».proof.Proof.Gen.Kernel.Skeleton
import proofs.«418288_j39625368273137_3_alg».proof.Proof.Gen.Kernel.Launch
import proofs.«418288_j39625368273137_3_alg».proof.Proof.Gen.Kernel.Points
import proofs.«418288_j39625368273137_3_alg».proof.Proof.Gen.Kernel.Frame
import proofs.«418288_j39625368273137_3_alg».proof.Proof.Gen.KernelIdeal
import proofs.«418288_j39625368273137_3_alg».proof.Proof.Gen.KernelIdeal.Skeleton
import proofs.«418288_j39625368273137_3_alg».proof.Proof.Gen.KernelIdeal.Launch
import proofs.«418288_j39625368273137_3_alg».proof.Proof.Gen.KernelIdeal.Points
import proofs.«418288_j39625368273137_3_alg».proof.Proof.Gen.KernelIdeal.Frame
import proofs.«418288_j39625368273137_3_alg».proof.Proof.Gen.ReferenceIdeal
import proofs.«418288_j39625368273137_3_alg».proof.Proof.Gen.Pre_finite_inputs
import proofs.«418288_j39625368273137_3_alg».proof.Proof.Gen.KernelIdeal.Value
import proofs.«418288_j39625368273137_3_alg».proof.Proof.Gen.ReferenceIdeal.Run
import proofs.«418288_j39625368273137_3_alg».proof.Proof.Gen.ReferenceIdeal.Read
import proofs.«418288_j39625368273137_3_alg».proof.Proof.ArrayValue
import proofs.«418288_j39625368273137_3_alg».proof.Proof.RefValue
import proofs.«418288_j39625368273137_3_alg».proof.Proof.LabelRange
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, with every label in 0 … 8, both programs end with the sampled
    embedding of the arguments in their result array. -/
theorem algebraic : Cert.algebraic_KernelIdeal_ReferenceIdeal := by
  intro m ρ m' ρ' hpre hagree
  have hlab : ∀ (c : Dev Cert.KernelIdeal.nD) j,
      (m ((c : Thread Cert.KernelIdeal.nD Cert.KernelIdeal.τ).loc Cert.KernelIdeal.main_arg1) j).toNat < 9 := fun c j =>
    Cert.Pre_finite_inputs.LabelRange.label_lt _ _ _ _ _ _ (hpre c) j
  refine ⟨fun c => Cert.KernelIdeal.ArrayValue.result m c, Cert.KernelIdeal.ArrayValue.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).2.1, (hagree c).2.2.1, (hagree c).2.2.2.1, (hagree c).2.2.2.2.1,
    (hagree c).2.2.2.2.2]
  exact Cert.ReferenceIdeal.RefValue.result_eq _ _ _ _ _ (hlab c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
